-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S256x128 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S100000x128 : Shape := ⟨2, ![100000, 128]⟩
abbrev S2000x256 : Shape := ⟨2, ![2000, 256]⟩
abbrev S2000x128 : Shape := ⟨2, ![2000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S2000x1 : Shape := ⟨2, ![2000, 1]⟩
abbrev S1x128 : Shape := ⟨2, ![1, 128]⟩

abbrev nBuf : Space → Nat
  | .hbm => 58
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  dot_S2000x256_S256x128_S2000x128_1_0_0_1_n_n_wf : DotDims.WF S2000x256 S256x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .i1⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelStages.lean ====
/-
  The host arithmetic between the two launches, stage by stage, as functions of the edge array and of h.

  From the edge array: the source words (row 0) and the target words (row 1). From the target words: the
  in-degree count plus one, its reciprocal square root dinv, and the column dinv². From both ends and h:
  each edge's message, h's row at the wrapped source word scaled by dinv at both wrapped ends, and the
  messages summed onto their target rows.
-/
import proofs.«174639_j37598143709729_1_alg».proof.Proof.Gen.KernelIdeal

noncomputable section

namespace Cert.KernelIdeal.Stages

open Idealize.ShloMosaic Idealize.ShloMosaic.TcCoe Idealize.SL.Sem
open Cert.KernelIdeal Cert.KernelIdeal.Gen

variable {F : FTy → Type} [FloatOps F]

/-- Row 0 of the edge array as a vector: the source words. -/
def rowV (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge array as a vector: the target words. -/
def colV (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The in-degree count (ones summed onto their target entries, from zero) plus one. -/
def degV (col : (⟨S1600000, .i32⟩ : BufTy).Contents (Elt F)) : (⟨S100000, .f32⟩ : BufTy).Contents (Elt F) :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 col)
      (broadcastInDim S1600000 ![] bcast_S_S1600000 (constant S_ .f32 0x3F800000#32)))
    (broadcastInDim S100000 ![] bcast_S_S100000 (constant S_ .f32 0x3F800000#32))

/-- dinv = 1/√deg. -/
def dinvV (col : (⟨S1600000, .i32⟩ : BufTy).Contents (Elt F)) : (⟨S100000, .f32⟩ : BufTy).Contents (Elt F) :=
  Host.rsqrt (degV (F := F) col)

/-- dinv² as a column. -/
def dinv2V (col : (⟨S1600000, .i32⟩ : BufTy).Contents (Elt F)) : (⟨S100000x1, .f32⟩ : BufTy).Contents (Elt F) :=
  shapeCast _ (mulf (dinvV (F := F) col) (dinvV (F := F) col)) shapeCasts_S100000_S100000x1

/-- An index vector with its negative words wrapped by the table's length. -/
def wrapV (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- Each edge's scale: dinv at its wrapped source word times dinv at its wrapped target word. -/
def normV (row col : (⟨S1600000, .i32⟩ : BufTy).Contents (Elt F)) : (⟨S1600000, .f32⟩ : BufTy).Contents (Elt F) :=
  mulf (Host.gather gather_S100000_S1600000x1_S1600000_n_0_n_n_0_1_1 (dinvV (F := F) col)
      (broadcastInDim S1600000x1 ![0] bcast_S1600000_S1600000x1_0 (wrapV (F := F) row)))
    (Host.gather gather_S100000_S1600000x1_S1600000_n_0_n_n_0_1_1 (dinvV (F := F) col)
      (broadcastInDim S1600000x1 ![0] bcast_S1600000_S1600000x1_0 (wrapV (F := F) col)))

/-- Each edge's message: h's row at the wrapped source word, scaled. -/
def msgsV (h : (⟨S100000x128, .f32⟩ : BufTy).Contents (Elt F)) (row col : (⟨S1600000, .i32⟩ : BufTy).Contents (Elt F)) :
    (⟨S1600000x128, .f32⟩ : BufTy).Contents (Elt F) :=
  mulf (Host.gather gather_S100000x128_S1600000x1_S1600000x128_1_0_n_n_0_1_1128 h
      (broadcastInDim S1600000x1 ![0] bcast_S1600000_S1600000x1_0 (wrapV (F := F) row)))
    (broadcastInDim S1600000x128 ![0, 1] bcast_S1600000x1_S1600000x128_0_1
      (broadcastInDim S1600000x1 ![0] bcast_S1600000_S1600000x1_0 (normV (F := F) row col)))

/-- The messages summed onto their target rows, from zero. -/
def aggV (h : (⟨S100000x128, .f32⟩ : BufTy).Contents (Elt F)) (row col : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 col)
    (msgsV (F := F) h row col)

end Cert.KernelIdeal.Stages

end
-- ==== Proof.KernelFold.lean ====
/-
  The buffers the second launch reads, traced back through the run: each is a stage of the host arithmetic
  applied to the first launch's result and to the edge array as launched; the arguments pass unchanged.
-/
import proofs.«174639_j37598143709729_1_alg».proof.Proof.Gen.KernelIdeal.Frame
import proofs.«174639_j37598143709729_1_alg».proof.Proof.KernelStages
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Stages

variable {F : FTy → Type} [FloatOps F]
variable (m : (ℓ : Loc nD τ sig) → Buf (Elt F) ℓ) (ρ : Dev nD → PrngReg)

/-- No operation of a stretch writes the buffer: membership in each operation's written set is refuted
    reference by reference. -/
local macro "not_written" : tactic =>
  `(tactic| (
    simp only [hostOps0, hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The two host stretches over any contents

Each stretch is a composition of array operations; what it leaves in a buffer it writes is that composition
applied to the contents it started from, at the buffers it reads. -/

/-- The first stretch leaves the source words: row 0 of the edge array, as a vector. -/
theorem after0_row (W : Valuation τ sig (Elt F)) :
    StableHlo.after hostOps0 W (Proc.devRef .tc main_v1) = rowV (F := F) (W (Proc.devRef .tc main_arg1)) := by
  after_results
  rfl

/-- The first stretch leaves the target words: row 1 of the edge array, as a vector. -/
theorem after0_col (W : Valuation τ sig (Elt F)) :
    StableHlo.after hostOps0 W (Proc.devRef .tc main_v3) = colV (F := F) (W (Proc.devRef .tc main_arg1)) := by
  after_results
  rfl

/-- The second stretch leaves the column dinv² of the target words it started from. -/
theorem after1_dinv2 (W : Valuation τ sig (Elt F)) :
    StableHlo.after hostOps1 W (Proc.devRef .tc main_v13) = dinv2V (F := F) (W (Proc.devRef .tc main_v3)) := by
  after_results
  rfl

/-- The second stretch leaves the messages summed, of the h, the source words and the target words it
    started from. -/
theorem after1_agg (W : Valuation τ sig (Elt F)) :
    StableHlo.after hostOps1 W (Proc.devRef .tc main_v41)
      = aggV (F := F) (W (Proc.devRef .tc main_v4)) (W (Proc.devRef .tc main_v1)) (W (Proc.devRef .tc main_v3)) := by
  after_results_simp
  rfl

/-- The source words at the first launch's exit: the launch does not touch them, and the first stretch made
    them from the edge array as launched. -/
theorem W2_row (c : Dev nD) :
    W2 m ρ c (Proc.devRef .tc main_v1) = rowV (F := F) (m ((c : Thread nD τ).loc main_arg1)) :=
  (W2_of_ne m ρ c main_v1 (by decide)).trans (after0_row (W0 m ρ c))

/-- The target words at the first launch's exit, likewise. -/
theorem W2_col (c : Dev nD) :
    W2 m ρ c (Proc.devRef .tc main_v3) = colV (F := F) (m ((c : Thread nD τ).loc main_arg1)) :=
  (W2_of_ne m ρ c main_v3 (by decide)).trans (after0_col (W0 m ρ c))

/-! ## The buffers the second launch reads, and the result -/

/-- The result's buffer after the run is the second launch's output array. -/
theorem W4_out (c : Dev nD) : W4 m ρ c (Proc.devRef .tc main_v42) = (dat1 (V3 m ρ) c).arrAt 5 cfg1.N :=
  W4_arr m ρ c 5

/-- The aggregate the second launch reads is the messages summed, of the first launch's result and the
    edge array as launched. -/
theorem V3_agg (c : Dev nD) :
    V3 m ρ c main_v41 = aggV (F := F) (V2 m ρ c main_v4) (rowV (m ((c : Thread nD τ).loc main_arg1))) (colV (m ((c : Thread nD τ).loc main_arg1))) := by
  refine (after1_agg (W2 m ρ c)).trans ?_
  rw [W2_row, W2_col]

/-- The column dinv² the second launch reads. -/
theorem V3_dinv2 (c : Dev nD) : V3 m ρ c main_v13 = dinv2V (F := F) (colV (m ((c : Thread nD τ).loc main_arg1))) := by
  refine (after1_dinv2 (W2 m ρ c)).trans ?_
  rw [W2_col]

/-- h passes from the first launch's exit to the second launch's entry unchanged. -/
theorem V3_h (c : Dev nD) : V3 m ρ c main_v4 = V2 m ρ c main_v4 :=
  StableHlo.after_of_forall_not_mem (b := Proc.devRef .tc main_v4) _ _ (List.forall_iff_forall_mem.mp (by not_written))

/-- h at the first launch's exit is that launch's output array. -/
theorem V2_h (c : Dev nD) : V2 m ρ c main_v4 = (dat0 (V1 m ρ) c).arrAt 2 cfg0.N :=
  W2_arr m ρ c 2

/-- The bias, the slopes, x and w are the arguments as launched. -/
theorem V3_bias (c : Dev nD) : V3 m ρ c main_arg3 = m ((c : Thread nD τ).loc main_arg3) :=
  calc W3 m ρ c (Proc.devRef .tc main_arg3)
    _ = W2 m ρ c (Proc.devRef .tc main_arg3) :=
        StableHlo.after_of_forall_not_mem (b := Proc.devRef .tc main_arg3) _ _ (List.forall_iff_forall_mem.mp (by not_written))
    _ = W1 m ρ c (Proc.devRef .tc main_arg3) := W2_of_ne m ρ c main_arg3 (by decide)
    _ = W0 m ρ c (Proc.devRef .tc main_arg3) :=
        StableHlo.after_of_forall_not_mem (b := Proc.devRef .tc main_arg3) _ _ (List.forall_iff_forall_mem.mp (by not_written))
    _ = m ((c : Thread nD τ).loc main_arg3) := rfl
theorem V3_alpha (c : Dev nD) : V3 m ρ c main_arg4 = m ((c : Thread nD τ).loc main_arg4) :=
  calc W3 m ρ c (Proc.devRef .tc main_arg4)
    _ = W2 m ρ c (Proc.devRef .tc main_arg4) :=
        StableHlo.after_of_forall_not_mem (b := Proc.devRef .tc main_arg4) _ _ (List.forall_iff_forall_mem.mp (by not_written))
    _ = W1 m ρ c (Proc.devRef .tc main_arg4) := W2_of_ne m ρ c main_arg4 (by decide)
    _ = W0 m ρ c (Proc.devRef .tc main_arg4) :=
        StableHlo.after_of_forall_not_mem (b := Proc.devRef .tc main_arg4) _ _ (List.forall_iff_forall_mem.mp (by not_written))
    _ = m ((c : Thread nD τ).loc main_arg4) := rfl
theorem V1_x (c : Dev nD) : V1 m ρ c main_arg0 = m ((c : Thread nD τ).loc main_arg0) :=
  calc W1 m ρ c (Proc.devRef .tc main_arg0)
    _ = W0 m ρ c (Proc.devRef .tc main_arg0) :=
        StableHlo.after_of_forall_not_mem (b := Proc.devRef .tc main_arg0) _ _ (List.forall_iff_forall_mem.mp (by not_written))
    _ = m ((c : Thread nD τ).loc main_arg0) := rfl
theorem V1_w (c : Dev nD) : V1 m ρ c main_arg2 = m ((c : Thread nD τ).loc main_arg2) :=
  calc W1 m ρ c (Proc.devRef .tc main_arg2)
    _ = W0 m ρ c (Proc.devRef .tc main_arg2) :=
        StableHlo.after_of_forall_not_mem (b := Proc.devRef .tc main_arg2) _ _ (List.forall_iff_forall_mem.mp (by not_written))
    _ = m ((c : Thread nD τ).loc main_arg2) := rfl

end Cert.KernelIdeal.Fold

end
-- ==== Proof.LibScatter.lean ====
/-
  The host's accumulating scatter and its row gather, read at an index, at the ideal instance.

  A "segment sum" scatters n update rows into an N-row operand: update row e is ADDED to operand row
  idx[e], the index word read signed and NOT clamped, so a word outside [0, N) lands nowhere. At the
  ideal instance the result at row i is the operand's entry plus the sum, over all update rows e
  whose index word is i, of the update's entry (no order of summation is left in it). Stated for
  a vector of scalars ([n] into [N]) and for rows of C channels ([n, C] into [N, C]).

  The row gather x[idx] of an [N, C] table by n index words reads, at (e, q), the table at row
  idx[e] read signed and clamped into [0, N − 1], column q.
-/
import Idealize.ShloMosaic.PureOps.Ideal
import Idealize.ShloMosaic.PureOps.Ideal.Laws
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Idealize.ShloMosaic.ScatterRows

open Idealize.ShloMosaic Idealize.ShloMosaic.ValueIdx

/-- An entry of a list known to be a singleton. -/
theorem getElem_of_eq_singleton {α : Type} {l : List α} {a : α} (h : l = [a]) (k : Nat) (hk : k < l.length) :
    l[k] = a := by
  subst h
  have : k = 0 := by simpa using hk
  subst this; rfl

/-- An update lands at operand index r exactly when, on every axis, its signed start plus its window
    coordinate is r's coordinate. -/
theorem resultIdx?_eq_some_iff {s si u : Shape} (d : ScatterDims s si u) {w : Nat} (j : u.Idx) (idx : IVec si w)
    (r : s.Idx) :
    d.resultIdx? j idx = some r ↔ ∀ a, d.start j idx a + (d.window j a : ℤ) = ((r a).val : ℤ) := by
  unfold ScatterDims.resultIdx?
  split
  · next h =>
    rw [Option.some.injEq]
    constructor
    · intro he a
      have h1 := congrArg Fin.val (congrFun he a)
      simp only at h1
      have h2 := h a
      omega
    · intro hr
      funext a
      apply Fin.ext
      have h1 := hr a
      have h2 := h a
      simp only
      omega
  · next h =>
    constructor
    · intro he; cases he
    · intro hr
      exfalso; apply h; intro a
      have h1 := hr a
      have h2 := (r a).isLt
      omega

/-! ## The scatter of scalars: where an update lands -/

section Vec
variable {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
include huw hiw hsd hivd

/-- The operand's one axis is inserted: no axis is kept for a window. -/
theorem vec_sKept : d.sKept = [] := by
  show (List.finRange 1).filter (· ∉ d.insertedWindowDims) = []
  rw [hiw]; rfl

/-- Update e's start on the operand's axis is its index word, read signed. -/
theorem vec_start0 (idx : IVec ⟨2, ![n, 1]⟩ w) (e : Fin n) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hX : ∀ X : Fin 1, ((ix1 e : (⟨1, ![n]⟩ : Shape).Idx) X).val = e.val := fun X => by
      obtain rfl : X = 0 := Subsingleton.elim _ _
      rfl
    exact hX _
  | ⟨1, _⟩ =>
    unfold ScatterDims.siIdx
    rw [dif_pos (by rw [hivd])]
    apply Fin.ext
    show List.idxOf (0 : Fin 1) d.scatterDimsToOperandDims = 0
    rw [hsd]; simp

/-- A scalar update has no window coordinate. -/
theorem vec_window0 (e : Fin n) : d.window (ix1 e) 0 = 0 := by
  unfold ScatterDims.window
  rw [dif_neg (by rw [vec_sKept d huw hiw hsd hivd]; exact List.not_mem_nil)]

/-- Update e lands at entry i exactly when its index word, read signed, is i. -/
theorem vec_resultIdx_iff (idx : IVec ⟨2, ![n, 1]⟩ w) (e : Fin n) (i : Fin N) :
    d.resultIdx? (ix1 e) idx = some (ix1 i) ↔ (idx (ix2 e (0 : Fin 1))).toInt = (i.val : ℤ) := by
  rw [resultIdx?_eq_some_iff, Fin.forall_fin_one]
  rw [vec_start0 d huw hiw hsd hivd, vec_window0 d huw hiw hsd hivd]
  show (idx (ix2 e (0 : Fin 1))).toInt + ((0 : Nat) : ℤ) = (i.val : ℤ) ↔ _
  constructor
  · intro h0; omega
  · intro h0; omega

end Vec

/-- The accumulating scatter of n scalars into an N-vector, at entry i. -/
theorem scatterAdd_vec_apply {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e : Fin n, if (idx (ix2 e (0 : Fin 1))).toInt = (i.val : ℤ) then upd (ix1 e) else 0 := by
  show Ideal.hostScatterAdd d x idx upd (ix1 i) = _
  unfold Ideal.hostScatterAdd
  congr 1
  rw [Finset.sum_filter]
  refine (Equiv.sum_comp (idxEquiv1 (n := n)).symm _).symm.trans ?_
  refine Finset.sum_congr rfl fun e _ => ?_
  show (if d.resultIdx? (ix1 e) idx = some (ix1 i) then upd (ix1 e) else 0) = _
  simp only [vec_resultIdx_iff d huw hiw hsd hivd]

/-! ## The scatter of rows: where an update lands -/

section Rows
variable {N n C w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
include huw hiw hsd hivd

/-- The updates' scatter axis is axis 0 (axis 1 is the window's). -/
theorem rows_uScatter : d.uScatter = [0] := by
  show (List.finRange 2).filter (· ∉ d.updateWindowDims) = [0]
  rw [huw]; rfl

/-- The operand's kept axis is axis 1 (axis 0 is inserted). -/
theorem rows_sKept : d.sKept = [1] := by
  show (List.finRange 2).filter (· ∉ d.insertedWindowDims) = [1]
  rw [hiw]; rfl

/-- Update (e, q')'s start on the row axis is index word e, read signed … -/
theorem rows_start0 (idx : IVec ⟨2, ![n, 1]⟩ w) (e : Fin n) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [getElem_of_eq_singleton (rows_uScatter d huw hiw hsd hivd)]
    rfl
  | ⟨1, _⟩ =>
    unfold ScatterDims.siIdx
    rw [dif_pos (by rw [hivd])]
    apply Fin.ext
    show List.idxOf (0 : Fin 2) d.scatterDimsToOperandDims = 0
    rw [hsd]; simp

/-- … and 0 on the channel axis, which the index map does not name. -/
theorem rows_start1 (idx : IVec ⟨2, ![n, 1]⟩ w) (e : Fin n) (q' : Fin C) :
    d.start (ix2 e q') idx 1 = 0 := by
  unfold ScatterDims.start
  rw [dif_neg (by rw [hsd]; simp)]

/-- The window coordinate is 0 on the row axis … -/
theorem rows_window0 (e : Fin n) (q' : Fin C) : d.window (ix2 e q') 0 = 0 := by
  unfold ScatterDims.window
  rw [dif_neg (by rw [rows_sKept d huw hiw hsd hivd]; simp)]

/-- … and the update's channel q' on the channel axis. -/
theorem rows_window1 (e : Fin n) (q' : Fin C) : d.window (ix2 e q') 1 = q'.val := by
  have hk : (1 : Fin 2) ∈ d.sKept := by rw [rows_sKept d huw hiw hsd hivd]; exact List.mem_singleton.mpr rfl
  unfold ScatterDims.window
  rw [dif_pos hk, getElem_of_eq_singleton huw]
  rfl

/-- Update (e, q') lands at (i, q) exactly when index word e, read signed, is i and the channels agree. -/
theorem rows_resultIdx_iff (idx : IVec ⟨2, ![n, 1]⟩ w) (e : Fin n) (q' : Fin C) (i : Fin N) (q : Fin C) :
    d.resultIdx? (ix2 e q') idx = some (ix2 i q)
      ↔ (idx (ix2 e (0 : Fin 1))).toInt = (i.val : ℤ) ∧ q' = q := by
  rw [resultIdx?_eq_some_iff, Fin.forall_fin_two]
  rw [rows_start0 d huw hiw hsd hivd, rows_start1 d huw hiw hsd hivd, rows_window0 d huw hiw hsd hivd,
    rows_window1 d huw hiw hsd hivd]
  show (idx (ix2 e (0 : Fin 1))).toInt + ((0 : Nat) : ℤ) = (i.val : ℤ) ∧ (0 : ℤ) + (q'.val : ℤ) = (q.val : ℤ) ↔ _
  constructor
  · rintro ⟨h0, h1⟩
    exact ⟨by omega, Fin.ext (by omega)⟩
  · rintro ⟨h0, h1⟩
    subst h1
    exact ⟨by omega, by omega⟩

end Rows

/-- The accumulating scatter of n rows of C channels into an [N, C] array, at (i, q). -/
theorem scatterAdd_rows_apply {N n C w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ .f32) (idx : IVec ⟨2, ![n, 1]⟩ w) (upd : FVec Ideal ⟨2, ![n, C]⟩ .f32)
    (i : Fin N) (q : Fin C) :
    Host.scatterAdd (F := Ideal) d x idx upd (ix2 i q)
      = x (ix2 i q) + ∑ e : Fin n, if (idx (ix2 e (0 : Fin 1))).toInt = (i.val : ℤ) then upd (ix2 e q) else 0 := by
  show Ideal.hostScatterAdd d x idx upd (ix2 i q) = _
  unfold Ideal.hostScatterAdd
  congr 1
  rw [Finset.sum_filter, sum_idx2]
  refine Finset.sum_congr rfl fun e _ => ?_
  simp only [rows_resultIdx_iff d huw hiw hsd hivd]
  by_cases hc : (idx (ix2 e (0 : Fin 1))).toInt = (i.val : ℤ)
  · simp only [hc, true_and, if_true]
    exact (Finset.sum_ite_eq' Finset.univ q fun b => upd (ix2 e b)).trans (if_pos (Finset.mem_univ q))
  · simp only [hc, false_and, if_false]
    exact Finset.sum_const_zero

/-! ## The gathers -/

/-- The two ways of writing the rank-1 index at coordinate a agree. -/
theorem ix1_eq_ofFin {m : Nat} (a : Fin m) : (ix1 a : (⟨1, ![m]⟩ : Shape).Idx) = Shape.Idx.ofFin a := by
  funext b
  obtain rfl : b = 0 := Subsingleton.elim _ _
  exact (Shape.Idx.ofFin_zero a).symm

/-- The two ways of writing the index (a, 0) of a one-column table agree. -/
theorem ix2_zero_eq_ixP {m : Nat} (a : Fin m) :
    (ix2 a (0 : Fin 1) : (⟨2, ![m, 1]⟩ : Shape).Idx) = StableHlo.Predicate.ixP a := by
  funext b
  match b with
  | ⟨0, _⟩ => rfl
  | ⟨1, _⟩ => rfl

/-- The take of a vector: entry e reads the table at idx[e], signed and clamped. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e (0 : Fin 1))).toInt.toNat (N - 1), by omega⟩) := by
  rw [ix1_eq_ofFin, ix1_eq_ofFin]
  simp only [ix2_zero_eq_ixP]
  exact StableHlo.Predicate.gather_take d hcoll hob hsim hivd x idx e hN

section GRows
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
include hoff hcoll hob hsim hivd

/-- The result's batch axis is axis 0 (axis 1 is the offset axis). -/
theorem grows_batchDims : d.batchDims = [0] := by
  show (List.finRange 2).filter (· ∉ d.offsetDims) = [0]
  rw [hoff]; rfl

/-- The operand's kept axis is axis 1 (axis 0 is collapsed). -/
theorem grows_sKept : d.sKept = [1] := by
  show (List.finRange 2).filter (· ∉ d.collapsedSliceDims ++ d.operandBatchingDims) = [1]
  rw [hcoll, hob]; rfl

/-- The slice for result (e, q) starts, on the row axis, at index word e read signed and clamped into
    [0, N − 1] (the slice has one row) … -/
theorem grows_start0 (idx : IVec ⟨2, ![n, 1]⟩ w) (e : Fin n) (q : Fin C) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm]
  show min (idx _).toInt.toNat (N - d.sliceSizes 0) = _
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    rw [getElem_of_eq_singleton (grows_batchDims d hoff hcoll hob hsim hivd)]
    rfl
  | ⟨1, _⟩ =>
    unfold GatherDims.siIdx
    rw [dif_pos (by rw [hivd])]
    apply Fin.ext
    show List.idxOf (0 : Fin 2) d.startIndexMap = 0
    rw [hsim]; simp

/-- … and at 0 on the channel axis, which the start index map does not name. -/
theorem grows_start1 (idx : IVec ⟨2, ![n, 1]⟩ w) (e : Fin n) (q : Fin C) :
    d.start (ix2 e q) idx 1 = 0 := by
  unfold GatherDims.start
  rw [dif_neg (by rw [hsim]; simp)]

/-- The offset coordinate is 0 on the collapsed row axis … -/
theorem grows_off0 (e : Fin n) (q : Fin C) : d.offCoord (ix2 e q) 0 = 0 :=
  d.offCoord_eq_zero _ _ (by rw [grows_sKept d hoff hcoll hob hsim hivd]; simp)

/-- … and the result's channel q on the channel axis. -/
theorem grows_off1 (e : Fin n) (q : Fin C) : d.offCoord (ix2 e q) 1 = q.val := by
  have hk : (1 : Fin 2) ∈ d.sKept := by rw [grows_sKept d hoff hcoll hob hsim hivd]; exact List.mem_singleton.mpr rfl
  unfold GatherDims.offCoord
  rw [dif_pos hk, getElem_of_eq_singleton hoff]
  rfl

end GRows

/-- The row gather: (e, q) reads the table at row idx[e], signed and clamped, column q. -/
theorem gather_rows_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a, a ∉ d.operandBatchingDims := fun a => by rw [hob]; exact List.not_mem_nil
  match a with
  | ⟨0, _⟩ =>
    show d.start (ix2 e q) idx 0 + d.batchCoord (ix2 e q) 0 + d.offCoord (ix2 e q) 0 = min _ _
    rw [d.batchCoord_eq_zero _ _ (hb 0), grows_start0 d hoff hcoll hob hsim hivd, grows_off0 d hoff hcoll hob hsim hivd]
    rfl
  | ⟨1, _⟩ =>
    show d.start (ix2 e q) idx 1 + d.batchCoord (ix2 e q) 1 + d.offCoord (ix2 e q) 1 = q.val
    rw [d.batchCoord_eq_zero _ _ (hb 1), grows_start1 d hoff hcoll hob hsim hivd, grows_off1 d hoff hcoll hob hsim hivd]
    omega

end Idealize.ShloMosaic.ScatterRows

end
-- ==== Proof.Spec.lean ====
/-
  The graph convolution, index by index, over the extended reals.

  A graph on 100000 nodes has a list of n directed edges (row e → col e), each end a 32-bit
  word. A node feature matrix x [100000 × 256] is first sent through the dense map
  h = x · w [100000 × 128]. Node i's in-degree count is the number of edges whose target
  word, read as a signed integer, IS i (an edge whose target lies outside [0, 100000) lands
  nowhere). With dinv = 1/√deg the message of edge e is
      msg e q = h[look (row e), q] · (dinv[look (row e)] · dinv[look (col e)]),
  where look wraps a negative word by the table's length and clamps the result into the
  table; node i sums the messages of the edges landing on it. The layer's output is a leaky
  rectifier with a per-channel slope of (aggregate + bias).

  Two arrangements are specified. In the first (edges only) the degree is the count plus
  one and the node's own term h[i, q] · (dinv i · dinv i) is added after the aggregation.
  In the second the edge list is extended by the 100000 self loops (j → j): the degree is
  the plain count over the extended list, guarded by a test deg > 0, and the aggregation
  over the extended list already holds the node's own term.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.GraphConv

open Idealize.ShloMosaic Idealize.ShloMosaic.ValueIdx

/-- The word 0.0 and the word 1.0 as extended reals. -/
abbrev zeroW : EReal := Ideal.ofBits .f32 0x00000000#32
abbrev oneW : EReal := Ideal.ofBits .f32 0x3F800000#32

/-- A negative index word wraps by the table's length (100000); any other word is kept. -/
def wrap (b : BitVec 32) : BitVec 32 :=
  Scalar.select (IntOp.cmpi .slt b 0#32) (IntOp.addi b 100000#32) b

/-- A word read signed and clamped into the table [0, 100000). -/
def clampIx (b : BitVec 32) : Fin 100000 := ⟨min b.toInt.toNat 99999, by omega⟩

/-- The table position an index word reads: wrapped, then clamped. -/
def look (b : BitVec 32) : Fin 100000 := clampIx (wrap b)

/-- The leaky rectifier with slope a: x where x > 0, else a · x. -/
def prelu (a x : EReal) : EReal :=
  Scalar.select (FloatOps.cmpf (F := Ideal) (φ := .f32) .ogt x zeroW) x (a * x)

/-- The reciprocal square root as the host computes it. -/
def rsq (x : EReal) : EReal := FloatOps.hostUnary (F := Ideal) (φ := .f32) .rsqrt x

/-- The dense map: (x · w)[i, q] = ∑ k, x[i, k] · w[k, q]. -/
def dense (x : (⟨2, ![100000, 256]⟩ : Shape).Idx → EReal) (w : (⟨2, ![256, 128]⟩ : Shape).Idx → EReal)
    (i : Fin 100000) (q : Fin 128) : EReal :=
  ∑ k : Fin 256, x (ix2 i k) * w (ix2 k q)

/-- Row 0 of the edge array: the source words. -/
def rowOf (ei : (⟨2, ![2, 1600000]⟩ : Shape).Idx → BitVec 32) (e : Fin 1600000) : BitVec 32 := ei (ix2 0 e)
/-- Row 1 of the edge array: the target words. -/
def colOf (ei : (⟨2, ![2, 1600000]⟩ : Shape).Idx → BitVec 32) (e : Fin 1600000) : BitVec 32 := ei (ix2 1 e)

/-- An edge-end list extended by the self loops: entry 1600000 + j is the word j. -/
def ext (v : Fin 1600000 → BitVec 32) (e : Fin 1700000) : BitVec 32 :=
  if h : e.val < 1600000 then v ⟨e.val, h⟩ else BitVec.ofNat 32 (e.val - 1600000)

section Edges
variable {n : Nat} (row col : Fin n → BitVec 32) (h : Fin 100000 → Fin 128 → EReal)
  (dinv : Fin 100000 → EReal)

/-- How many edges land on node i: a target word lands on i when its signed value is i. -/
def cnt (i : Fin 100000) : EReal := ∑ e : Fin n, if (col e).toInt = (i.val : ℤ) then oneW else 0

/-- Edge e's message on channel q. -/
def msg (e : Fin n) (q : Fin 128) : EReal :=
  h (look (row e)) q * (dinv (look (row e)) * dinv (look (col e)))

/-- The messages landing on node i, summed, on channel q. -/
def agg (i : Fin 100000) (q : Fin 128) : EReal :=
  ∑ e : Fin n, if (col e).toInt = (i.val : ℤ) then msg row col h dinv e q else 0

end Edges

/-! ## First arrangement: edges only, the node's own term added afterwards -/

section First
variable (row col : Fin 1600000 → BitVec 32) (h : Fin 100000 → Fin 128 → EReal)
  (bias alpha : Fin 128 → EReal)

def degK (i : Fin 100000) : EReal := (zeroW + cnt col i) + oneW
def dinvK (i : Fin 100000) : EReal := rsq (degK col i)
def outK (i : Fin 100000) (q : Fin 128) : EReal :=
  prelu (alpha q) (((zeroW + agg row col h (dinvK col) i q) + h i q * (dinvK col i * dinvK col i)) + bias q)
end First

/-! ## Second arrangement: the edge list extended by the self loops -/

section Second
variable (row col : Fin 1700000 → BitVec 32) (h : Fin 100000 → Fin 128 → EReal)
  (bias alpha : Fin 128 → EReal)

def degR (i : Fin 100000) : EReal := zeroW + cnt col i
def dinvR (i : Fin 100000) : EReal :=
  Scalar.select (FloatOps.cmpf (F := Ideal) (φ := .f32) .ogt (degR col i) zeroW) (rsq (degR col i)) zeroW
def outR (i : Fin 100000) (q : Fin 128) : EReal :=
  prelu (alpha q) ((zeroW + agg row col h (dinvR col) i q) + bias q)
end Second

end Cert.GraphConv

end
-- ==== Proof.KernelRead.lean ====
/-
  The host stages between the launches, read at an index, at the ideal instance: each is the edges-only
  arrangement of the graph convolution's specification.
-/
import proofs.«174639_j37598143709729_1_alg».proof.Proof.KernelStages
import proofs.«174639_j37598143709729_1_alg».proof.Proof.LibScatter
import proofs.«174639_j37598143709729_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate

noncomputable section

open scoped BigOperators

namespace Cert.KernelIdeal.StageRead

open Idealize.ShloMosaic Idealize.ShloMosaic.TcCoe Idealize.ShloMosaic.ValueIdx
open Cert.KernelIdeal Cert.KernelIdeal.Gen Cert.KernelIdeal.Stages Cert.GraphConv

/-! ## The edge array's two rows -/

/-- The source words, entry by entry. -/
theorem rowV_apply (ei : S2x1600000.Idx → BitVec 32) (e : Fin 1600000) : rowV (F := Ideal) ei (ix1 e) = rowOf ei e := by
  unfold rowV rowOf
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![0, 0] ei slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

/-- The target words, entry by entry. -/
theorem colV_apply (ei : S2x1600000.Idx → BitVec 32) (e : Fin 1600000) : colV (F := Ideal) ei (ix1 e) = colOf ei e := by
  unfold colV colOf
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![1, 0] ei slices_S2x1600000_S1x1600000_1_0 (ix2 (0 : Fin 1) e) (ix2 (1 : Fin 2) e)
      (fun a => match a with
        | ⟨0, _⟩ => by show (1 : Nat) = 1 + 0; rfl
        | ⟨1, _⟩ => by show e.val = 0 + e.val; omega)

/-! ## The layout steps between the stages -/

/-- A vector of 1600000 entries made a one-column array: entry (e, 0) is the vector's entry e. -/
theorem column_apply {α : Type} (v : S1600000.Idx → α) (e : Fin 1600000) :
    broadcastInDim S1600000x1 ![0] bcast_S1600000_S1600000x1_0 v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- A one-column array repeated along 128 channels: entry (e, q) is the column's entry (e, 0). -/
theorem channels_apply {α : Type} (v : S1600000x1.Idx → α) (e : Fin 1600000) (q : Fin 128) :
    broadcastInDim S1600000x128 ![0, 1] bcast_S1600000x1_S1600000x128_0_1 v (ix2 e q) = v (ix2 e (0 : Fin 1)) :=
  broadcastInDim_apply _ bcast_S1600000x1_S1600000x128_0_1 v (ix2 e q) (ix2 e (0 : Fin 1)) (fun a => match a with
    | ⟨0, _⟩ => by show e.val = if (1600000 : Nat) = 1 then 0 else e.val; rw [if_neg (by decide)]
    | ⟨1, _⟩ => by show (0 : Nat) = if (1 : Nat) = 1 then 0 else q.val; rw [if_pos rfl])

/-! ## The constant arrays -/

/-- The zero word broadcast to any shape reads the zero word everywhere. -/
theorem zeros_apply {T : Shape} (hT : S_.BroadcastsInDim T ![]) (j : T.Idx) :
    broadcastInDim T ![] hT (constant (F := Ideal) S_ .f32 0x00000000#32) j = zeroW :=
  (broadcastInDim_scalar_apply hT _ j).trans (constant_apply _ _)

/-- The word 1.0 broadcast to any shape reads that word everywhere. -/
theorem ones_apply {T : Shape} (hT : S_.BroadcastsInDim T ![]) (j : T.Idx) :
    broadcastInDim T ![] hT (constant (F := Ideal) S_ .f32 0x3F800000#32) j = oneW :=
  (broadcastInDim_scalar_apply hT _ j).trans (constant_apply _ _)
/-! ## The degree and its reciprocal square root -/

/-- The in-degree count from zero, plus one, at node i. -/
theorem degV_apply (col : S1600000.Idx → BitVec 32) (i : Fin 100000) :
    degV (F := Ideal) col (ix1 i) = degK (fun e => col (ix1 e)) i := by
  unfold degV degK cnt
  refine (addf_apply _ _ (ix1 i)).trans ?_
  rw [ones_apply bcast_S_S100000 (ix1 i),
    ScatterRows.scatterAdd_vec_apply scatter_S100000_S1600000x1_S1600000_n_0_0_1 rfl rfl rfl rfl _ _ _ i,
    zeros_apply bcast_S_S100000 (ix1 i)]
  refine congrArg (fun s => zeroW + s + oneW) (Finset.sum_congr rfl (fun e _ => ?_))
  rw [column_apply col e, ones_apply bcast_S_S1600000 (ix1 e)]

/-- The host's reciprocal square root of an array, entry by entry. -/
theorem hostRsqrt_apply (x : S100000.Idx → EReal) (j : S100000.Idx) :
    Host.rsqrt (F := Ideal) (φ := .f32) x j = rsq (x j) := rfl

/-- dinv at node i. -/
theorem dinvV_apply (col : S1600000.Idx → BitVec 32) (i : Fin 100000) :
    dinvV (F := Ideal) col (ix1 i) = dinvK (fun e => col (ix1 e)) i := by
  unfold dinvV dinvK
  exact (hostRsqrt_apply _ (ix1 i)).trans (congrArg rsq (degV_apply col i))
/-- The column dinv² at node i. -/
theorem dinv2V_apply (col : S1600000.Idx → BitVec 32) (i : Fin 100000) :
    dinv2V (F := Ideal) col (ix2 i (0 : Fin 1)) = dinvK (fun e => col (ix1 e)) i * dinvK (fun e => col (ix1 e)) i := by
  unfold dinv2V
  refine (shapeCast_apply _ shapeCasts_S100000_S100000x1 (ix2 i (0 : Fin 1)) (ix1 i) ?_).trans ?_
  · rw [Shape.rowMajor_val_two, Shape.rowMajor_val_one]; show i.val = i.val * 1 + 0; omega
  · refine (mulf_apply _ _ (ix1 i)).trans ?_
    rw [dinvV_apply col i]
/-! ## The wrapped index words, the edge scales and the messages -/

/-- The wrapped vector's entry e is the wrap of the vector's entry e. -/
theorem wrapV_apply (v : S1600000.Idx → BitVec 32) (e : Fin 1600000) :
    wrapV (F := Ideal) v (ix1 e) = wrap (v (ix1 e)) := rfl
/-- A word clamped into the table, in the two ways it is written. -/
theorem clamp_eq (b c : BitVec 32) (hbc : b = c) (p : min b.toInt.toNat (100000 - 1) < 100000) :
    (⟨min b.toInt.toNat (100000 - 1), p⟩ : Fin 100000) = clampIx c := by
  subst hbc; rfl
/-- dinv taken at the wrapped words of a vector: entry e reads dinv at the looked-up position of the vector's entry e. -/
theorem take_dinv_apply (col v : S1600000.Idx → BitVec 32) (e : Fin 1600000) :
    Host.gather gather_S100000_S1600000x1_S1600000_n_0_n_n_0_1_1 (dinvV (F := Ideal) col)
        (broadcastInDim S1600000x1 ![0] bcast_S1600000_S1600000x1_0 (wrapV (F := Ideal) v)) (ix1 e)
      = dinvK (fun e => col (ix1 e)) (look (v (ix1 e))) := by
  refine (ScatterRows.gather_vec_apply gather_S100000_S1600000x1_S1600000_n_0_n_n_0_1_1 rfl rfl rfl rfl _ _ e (by omega)).trans ?_
  refine Eq.trans (congrArg (fun k => dinvV (F := Ideal) col (ix1 k)) (clamp_eq _ (wrap (v (ix1 e))) ?_ _)) ?_
  · rw [column_apply _ e, wrapV_apply v e]
  · exact dinvV_apply col (look (v (ix1 e)))
/-- Edge e's scale: dinv at its looked-up source times dinv at its looked-up target. -/
theorem normV_apply (row col : S1600000.Idx → BitVec 32) (e : Fin 1600000) :
    normV (F := Ideal) row col (ix1 e)
      = dinvK (fun e => col (ix1 e)) (look (row (ix1 e))) * dinvK (fun e => col (ix1 e)) (look (col (ix1 e))) := by
  unfold normV
  refine (mulf_apply _ _ (ix1 e)).trans ?_
  rw [take_dinv_apply col row e, take_dinv_apply col col e]

/-- h's rows taken at the wrapped words of a vector: entry (e, q) reads h at the looked-up position of the vector's entry e. -/
theorem take_rows_apply (h : S100000x128.Idx → EReal) (v : S1600000.Idx → BitVec 32) (e : Fin 1600000) (q : Fin 128) :
    Host.gather gather_S100000x128_S1600000x1_S1600000x128_1_0_n_n_0_1_1128 h
        (broadcastInDim S1600000x1 ![0] bcast_S1600000_S1600000x1_0 (wrapV (F := Ideal) v)) (ix2 e q)
      = h (ix2 (look (v (ix1 e))) q) := by
  refine (ScatterRows.gather_rows_apply gather_S100000x128_S1600000x1_S1600000x128_1_0_n_n_0_1_1128 rfl rfl rfl rfl rfl _ _ e q (by omega)).trans ?_
  refine congrArg (fun k => h (ix2 k q)) (clamp_eq _ (wrap (v (ix1 e))) ?_ _)
  rw [column_apply _ e, wrapV_apply v e]

/-- Edge e's message on channel q. -/
theorem msgsV_apply (h : S100000x128.Idx → EReal) (row col : S1600000.Idx → BitVec 32) (e : Fin 1600000) (q : Fin 128) :
    msgsV (F := Ideal) h row col (ix2 e q)
      = msg (fun e => row (ix1 e)) (fun e => col (ix1 e)) (fun i q => h (ix2 i q)) (dinvK (fun e => col (ix1 e))) e q := by
  unfold msgsV msg
  refine (mulf_apply _ _ (ix2 e q)).trans ?_
  rw [take_rows_apply h row e q, channels_apply _ e q, column_apply _ e, normV_apply row col e]
/-! ## The aggregate -/

/-- The aggregate at (i, q): zero plus the messages of the edges landing on i. -/
theorem aggV_apply (h : S100000x128.Idx → EReal) (row col : S1600000.Idx → BitVec 32) (i : Fin 100000) (q : Fin 128) :
    aggV (F := Ideal) h row col (ix2 i q)
      = zeroW + agg (fun e => row (ix1 e)) (fun e => col (ix1 e)) (fun i q => h (ix2 i q)) (dinvK (fun e => col (ix1 e))) i q := by
  unfold aggV agg
  rw [ScatterRows.scatterAdd_rows_apply scatter_S100000x128_S1600000x1_S1600000x128_1_0_0_1 rfl rfl rfl rfl _ _ _ i q,
    zeros_apply bcast_S_S100000x128 (ix2 i q)]
  refine congrArg (fun s => zeroW + s) (Finset.sum_congr rfl (fun e _ => ?_))
  rw [column_apply col e, msgsV_apply h row col e q]

end Cert.KernelIdeal.StageRead

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region0.lean ====
/-
  The first launch: the dense map, block by block.

  The grid has 50 points; point t multiplies rows [2000 t, 2000 t + 2000) of x by the whole of w and
  writes rows [2000 t, 2000 t + 2000) of the result. After the launch the result array holds, at
  (i, q), the sum over k of x[i, k] · w[k, q]: every block is the restriction of that one function.
-/
import proofs.«174639_j37598143709729_1_alg».proof.Proof.Gen.KernelIdeal.Frame
import proofs.«174639_j37598143709729_1_alg».proof.Proof.LibDot2
import proofs.«174639_j37598143709729_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

/-- The two argument arrays as the launch finds them, at their literal shapes. -/
abbrev xarr (c : Dev nD) : S100000x256.Idx → EReal := V c main_arg0
abbrev warr (c : Dev nD) : S256x128.Idx → EReal := V c main_arg2

/-- The dense map as one whole array: entry (i, q) is the sum over k of x[i, k] * w[k, q]. -/
def denseArr (x : S100000x256.Idx → EReal) (w : S256x128.Idx → EReal) : S100000x128.Idx → EReal :=
  fun j => dense x w (j 0) (j 1)

/-- A block's loads and its one store start at the block's origin. -/
theorem origin : (![0, 0] : Fin 2 → Nat) = fun _ => 0 := funext fun a => by fin_cases a <;> rfl

/-- The body's arithmetic at an entry: the two changes of float format are the identity on the extended reals,
    and the multiply-accumulate into zero is the plain sum of products. -/
theorem pay_apply (x0 : Vec Ideal S2000x256 .f32) (w0 : Vec Ideal S256x128 .f32) (p : Fin 2000) (q : Fin 128) :
    k0_pay1 (F := Ideal) x0 w0 (ix2 p q) = ∑ k : Fin 256, x0 (ix2 p k) * w0 (ix2 k q) := by
  unfold k0_pay1
  exact Dot2.matmul_zero_mm_apply dot_S2000x256_S256x128_S2000x128_1_0_0_1_n_n_wf none x0 w0 p q

/-- Where the three windows sit at point t: x's block is block row t, w's block is the whole of w,
    the result's block is block row t. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of x's block at point t is row 2000 t + p of x. -/
theorem xblk_apply (c : Dev nD) (t : Fin cfg0.N) (p : Fin 2000) (k : Fin 256) (i : Fin 100000)
    (hi : i.val = 2000 * t.val + p.val) :
    (iblk0 V c 0 t : Vec Ideal S2000x256 .f32) (ix2 p k) = xarr V c (ix2 i k) := by
  obtain ⟨e0, e1, -⟩ := block_index t
  unfold iblk0
  rw [View.read_apply]
  show V c main_arg0 _ = V c main_arg0 _
  congr 1
  funext a; apply Fin.ext
  match a with
  | ⟨0, _⟩ => show win0_0.index t (0 : Fin 2) * 2000 + 1 * p.val = i.val; rw [e0, hi]; omega
  | ⟨1, _⟩ => show win0_0.index t (1 : Fin 2) * 256 + 1 * k.val = k.val; rw [e1]; omega

/-- w's block at every point is w. -/
theorem wblk_apply (c : Dev nD) (t : Fin cfg0.N) (k : Fin 256) (q : Fin 128) :
    (iblk0 V c 1 t : Vec Ideal S256x128 .f32) (ix2 k q) = warr V c (ix2 k q) := by
  obtain ⟨-, -, e2, e3, -⟩ := block_index t
  unfold iblk0
  rw [View.read_apply]
  show V c main_arg2 _ = V c main_arg2 _
  congr 1
  funext a; apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- A block of rows of x times w is the same rows of the dense map. -/
theorem blk_dense (x0 : Vec Ideal S2000x256 .f32) (w0 : Vec Ideal S256x128 .f32)
    (x : S100000x256.Idx → EReal) (w : S256x128.Idx → EReal) (p : Fin 2000) (q : Fin 128) (i : Fin 100000)
    (hx : ∀ k : Fin 256, x0 (ix2 p k) = x (ix2 i k)) (hw : ∀ k : Fin 256, w0 (ix2 k q) = w (ix2 k q)) :
    k0_pay1 (F := Ideal) x0 w0 (ix2 p q) = dense x w i q := by
  rw [pay_apply]
  unfold dense
  exact Finset.sum_congr rfl fun k _ => by rw [hx k, hw k]

/-- What point t writes back is block row t of the dense map. -/
theorem flushed_eq (c : Dev nD) (t : Fin cfg0.N) :
    (dat0 (F := Ideal) V c).flushed 2 t
      = ((cfg0.win 2).blk t).view.read (Elt Ideal) (denseArr (xarr V c) (warr V c)) := by
  show (cfg0.win 2).cut (grid0.coords t) ((dat0 V c).after 2 t) = _
  rw [after0_2]
  unfold out0_2
  rw [View.canon_unit_zero origin]
  simp only [View.ld_unit_zero (S := S2000x256) origin, View.ld_unit_zero (S := S256x128) origin]
  obtain ⟨-, -, -, -, e4, e5⟩ := block_index t
  have ht : t.val < 50 := lt_of_lt_of_eq t.isLt N_0
  funext j
  obtain ⟨p, q, rfl⟩ : ∃ (p : Fin 2000) (q : Fin 128), j = ix2 p q := ⟨j 0, j 1, eq_ix2 j⟩
  have hrow : 2000 * t.val + p.val < 100000 := by have := p.isLt; omega
  show k0_pay1 (F := Ideal) (iblk0 V c 0 t) (iblk0 V c 1 t) (ix2 p q) = _
  refine (blk_dense (iblk0 V c 0 t) (iblk0 V c 1 t) (xarr V c) (warr V c) p q ⟨2000 * t.val + p.val, hrow⟩
    (fun k => xblk_apply V c t p k _ rfl) (fun k => wblk_apply V c t k q)).trans ?_
  show dense (xarr V c) (warr V c) _ _
    = denseArr (xarr V c) (warr V c) (((cfg0.win 2).blk t).view.emb (ix2 p q))
  unfold denseArr
  congr 1 <;> apply Fin.ext
  · show 2000 * t.val + p.val = win0_2.index t (0 : Fin 2) * 2000 + 1 * p.val; rw [e4]; omega
  · show q.val = win0_2.index t (1 : Fin 2) * 128 + 1 * q.val; rw [e5]; omega

/-- An entry of the result array lies in point t's block exactly when each coordinate lies in the block's range. -/
theorem mem_block (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Row r of the result lies in the block of point r / 2000: the 50 blocks of 2000 rows tile the 100000 rows. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, e4, e5⟩ := block_index ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

/-- After the launch the result array is the dense map of the two argument arrays, as one array. -/
theorem arr_eq (c : Dev nD) :
    (dat0 (F := Ideal) V c).arrAt 2 cfg0.N = denseArr (xarr V c) (warr V c) :=
  (dat0 (F := Ideal) V c).arrAt_eq_of_cover 2 (denseArr (xarr V c) (warr V c)) (fun t _ => flushed_eq V c t) blocks_cover

/-- After the first launch the result array is the dense map of the two argument arrays as the launch
    found them. -/
theorem arr_apply (c : Dev nD) (i : Fin 100000) (q : Fin 128) :
    (dat0 (F := Ideal) V c).arrAt 2 cfg0.N (ix2 i q) = dense (V c main_arg0) (V c main_arg2) i q :=
  (congrFun (arr_eq V c) (ix2 i q)).trans rfl

end Cert.KernelIdeal.Region0

end
-- ==== Proof.Region1.lean ====
/-
  The second launch: the node's own term, the bias and the leaky rectifier, block by block.

  The grid has 50 points; point t reads rows [2000 t, 2000 t + 2000) of the aggregate, of h and of the
  column dinv², and the whole bias and slope vectors, and writes the same rows of the result:
      out[i, q] = prelu (alpha q) ((agg[i, q] + h[i, q] · dinv²[i]) + bias q).
-/
import proofs.«174639_j37598143709729_1_alg».proof.Proof.Gen.KernelIdeal.Frame
import proofs.«174639_j37598143709729_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GraphConv

/-! ## The body's arithmetic at one entry of a block -/

/-- The zero offsets of an access to a whole block, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at (p, q) of a block: the rectifier, with the slope of channel q, of the aggregate's entry plus
    the h entry times the column's entry of row p, plus the bias of channel q. -/
theorem pay_apply (x0 x1 : FVec Ideal S2000x128 .f32) (x2 : FVec Ideal S2000x1 .f32) (x3 x4 : FVec Ideal S128 .f32)
    (p : Fin 2000) (q : Fin 128) :
    k1_pay1 (F := Ideal) x0 x1 x2 x3 x4 (ix2 p q)
      = prelu (x4 (ix1 q)) ((x0 (ix2 p q) + x1 (ix2 p q) * x2 (ix2 p (0 : Fin 1))) + x3 (ix1 q)) := by
  have e6 : broadcastTo S2000x128 (shapeCast S2000x1 x2 shapeCasts_S2000x1_S2000x1) broadcasts_S2000x1_S2000x128 (ix2 p q)
      = x2 (ix2 p (0 : Fin 1)) := by
    rw [shapeCast_self]; exact broadcastTo_a1_ab_apply x2 _ p q
  have e11 : ∀ x : FVec Ideal S128 .f32,
      broadcastTo S2000x128 (shapeCast S1x128 x shapeCasts_S128_S1x128) broadcasts_S1x128_S2000x128 (ix2 p q) = x (ix1 q) :=
    fun x => (broadcastTo_1b_ab_apply _ _ p q).trans (shapeCast_a_1a_apply x _ 0 q)
  have e1 : ∀ x : FVec Ideal S2000x128 .f32, shapeCast S2000x128 x shapeCasts_S2000x128_S2000x128 = x :=
    fun x => shapeCast_self x _
  unfold k1_pay1
  simp only [select_apply, cmpf_apply, mulf_apply, addf_apply, broadcast_apply, e1, e6, e11]
  rfl

variable (V : (c : Dev nD) → (b : Ref sig .tc) → Buf (Elt Ideal) ((c : Thread nD τ).loc b))

/-- The five arrays the second launch reads, as it finds them, at their literal types. -/
abbrev aggA (c : Dev nD) : S100000x128.Idx → EReal := V c main_v41
abbrev hA (c : Dev nD) : S100000x128.Idx → EReal := V c main_v4
abbrev d2A (c : Dev nD) : S100000x1.Idx → EReal := V c main_v13
abbrev biasA (c : Dev nD) : S128.Idx → EReal := V c main_arg3
abbrev alphaA (c : Dev nD) : S128.Idx → EReal := V c main_arg4

/-! ## The blocks a point reads -/

/-- The block indices over the grid: at point t the three row-blocked inputs and the output sit at block (t, 0), and
    the two whole vectors at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- Point t's block of the aggregate is its rows 2000 t … 2000 t + 1999. -/
theorem blk0_apply (c : Dev nD) (t : Fin cfg1.N) (p : Fin 2000) (q : Fin 128) (i : Fin 100000)
    (hi : i.val = 2000 * t.val + p.val) :
    (iblk1 V c 0 t : Vec Ideal S2000x128 .f32) (ix2 p q) = aggA V c (ix2 i q) := by
  obtain ⟨e0, e1, -⟩ := idx_facts t
  unfold iblk1
  rw [View.read_apply]
  show V c main_v41 _ = V c main_v41 _
  congr 1
  funext a
  apply Fin.ext
  match a with
  | ⟨0, _⟩ => show win1_0.index t (0 : Fin 2) * 2000 + 1 * p.val = i.val; omega
  | ⟨1, _⟩ => show win1_0.index t (1 : Fin 2) * 128 + 1 * q.val = q.val; omega

/-- Point t's block of h is its rows 2000 t … 2000 t + 1999. -/
theorem blk1_apply (c : Dev nD) (t : Fin cfg1.N) (p : Fin 2000) (q : Fin 128) (i : Fin 100000)
    (hi : i.val = 2000 * t.val + p.val) :
    (iblk1 V c 1 t : Vec Ideal S2000x128 .f32) (ix2 p q) = hA V c (ix2 i q) := by
  obtain ⟨-, -, e0, e1, -⟩ := idx_facts t
  unfold iblk1
  rw [View.read_apply]
  show V c main_v4 _ = V c main_v4 _
  congr 1
  funext a
  apply Fin.ext
  match a with
  | ⟨0, _⟩ => show win1_1.index t (0 : Fin 2) * 2000 + 1 * p.val = i.val; omega
  | ⟨1, _⟩ => show win1_1.index t (1 : Fin 2) * 128 + 1 * q.val = q.val; omega

/-- Point t's block of the column is its rows 2000 t … 2000 t + 1999. -/
theorem blk2_apply (c : Dev nD) (t : Fin cfg1.N) (p : Fin 2000) (i : Fin 100000)
    (hi : i.val = 2000 * t.val + p.val) :
    (iblk1 V c 2 t : Vec Ideal S2000x1 .f32) (ix2 p (0 : Fin 1)) = d2A V c (ix2 i (0 : Fin 1)) := by
  obtain ⟨-, -, -, -, e0, e1, -⟩ := idx_facts t
  unfold iblk1
  rw [View.read_apply]
  show V c main_v13 _ = V c main_v13 _
  congr 1
  funext a
  apply Fin.ext
  match a with
  | ⟨0, _⟩ => show win1_2.index t (0 : Fin 2) * 2000 + 1 * p.val = i.val; omega
  | ⟨1, _⟩ => show win1_2.index t (1 : Fin 2) * 1 + 1 * 0 = 0; omega

/-- Every point's block of the bias is the whole vector. -/
theorem blk3_apply (c : Dev nD) (t : Fin cfg1.N) (q : Fin 128) :
    (iblk1 V c 3 t : Vec Ideal S128 .f32) (ix1 q) = biasA V c (ix1 q) := by
  obtain ⟨-, -, -, -, -, -, e0, -⟩ := idx_facts t
  unfold iblk1
  rw [View.read_apply]
  show V c main_arg3 _ = V c main_arg3 _
  congr 1
  funext a
  apply Fin.ext
  match a with
  | ⟨0, _⟩ => show win1_3.index t (0 : Fin 1) * 128 + 1 * q.val = q.val; omega

/-- Every point's block of the slopes is the whole vector. -/
theorem blk4_apply (c : Dev nD) (t : Fin cfg1.N) (q : Fin 128) :
    (iblk1 V c 4 t : Vec Ideal S128 .f32) (ix1 q) = alphaA V c (ix1 q) := by
  obtain ⟨-, -, -, -, -, -, -, e0, -⟩ := idx_facts t
  unfold iblk1
  rw [View.read_apply]
  show V c main_arg4 _ = V c main_arg4 _
  congr 1
  funext a
  apply Fin.ext
  match a with
  | ⟨0, _⟩ => show win1_4.index t (0 : Fin 1) * 128 + 1 * q.val = q.val; omega

/-! ## From the blocks to the array -/

/-- The result at row i, channel q. -/
def outAt (c : Dev nD) (i : Fin 100000) (q : Fin 128) : EReal :=
  prelu (alphaA V c (ix1 q))
    ((aggA V c (ix2 i q) + hA V c (ix2 i q) * d2A V c (ix2 i (0 : Fin 1))) + biasA V c (ix1 q))

/-- The whole result array. -/
abbrev G (c : Dev nD) : S100000x128.Idx → EReal := fun k => outAt V c (k 0) (k 1)

/-- The body's result at entry y of point t's block is the result array's entry 2000 t rows further down, for any
    five blocks that are, entry by entry, the rows of the arrays the point reads. -/
theorem point_eq (c : Dev nD) (t : Fin cfg1.N) (x0 x1 : FVec Ideal S2000x128 .f32) (x2 : FVec Ideal S2000x1 .f32)
    (x3 x4 : FVec Ideal S128 .f32)
    (h0 : ∀ (p : Fin 2000) (q : Fin 128) (i : Fin 100000), i.val = 2000 * t.val + p.val → x0 (ix2 p q) = aggA V c (ix2 i q))
    (h1 : ∀ (p : Fin 2000) (q : Fin 128) (i : Fin 100000), i.val = 2000 * t.val + p.val → x1 (ix2 p q) = hA V c (ix2 i q))
    (h2 : ∀ (p : Fin 2000) (i : Fin 100000), i.val = 2000 * t.val + p.val → x2 (ix2 p (0 : Fin 1)) = d2A V c (ix2 i (0 : Fin 1)))
    (h3 : ∀ q : Fin 128, x3 (ix1 q) = biasA V c (ix1 q))
    (h4 : ∀ q : Fin 128, x4 (ix1 q) = alphaA V c (ix1 q))
    (y : S2000x128.Idx) (k : S100000x128.Idx)
    (hk0 : (k 0).val = 2000 * t.val + (y 0).val) (hk1 : (k 1).val = (y 1).val) :
    k1_pay1 (F := Ideal) x0 x1 x2 x3 x4 y = G V c k := by
  obtain ⟨p, q, rfl⟩ : ∃ (p : Fin 2000) (q : Fin 128), y = ix2 p q := ⟨y 0, y 1, eq_ix2 y⟩
  obtain ⟨i, q', rfl⟩ : ∃ (i : Fin 100000) (q' : Fin 128), k = ix2 i q' := ⟨k 0, k 1, eq_ix2 k⟩
  obtain rfl : q' = q := Fin.ext hk1
  rw [pay_apply, h0 p q' i hk0, h1 p q' i hk0, h2 p i hk0, h3, h4]
  rfl

/-- What point t writes back is block t of the result array. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz2]
  simp only [View.ld_unit_zero (S := S2000x128) hz2, View.ld_unit_zero (S := S2000x1) hz2,
    View.ld_unit_zero (S := S128) hz1]
  obtain ⟨-, -, -, -, -, -, -, -, e0, e1⟩ := idx_facts t
  funext j
  refine point_eq V c t (iblk1 V c 0 t) (iblk1 V c 1 t) (iblk1 V c 2 t) (iblk1 V c 3 t) (iblk1 V c 4 t)
    (blk0_apply V c t) (blk1_apply V c t) (blk2_apply V c t) (blk3_apply V c t) (blk4_apply V c t)
    ((cfg1.win 5).xinj (grid1.coords t) j) (((cfg1.win 5).blk t).view.emb j) ?_ ?_
  · show win1_5.index t (0 : Fin 2) * 2000 + 1 * (j 0).val = 2000 * t.val + (j 0).val
    omega
  · show win1_5.index t (1 : Fin 2) * 128 + 1 * (j 1).val = (j 1).val
    omega

/-- An index of the result array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v42).slice (win1_5.rect t)).set ↔ _
  rw [View.set_slice_whole, Rect.mem_set_unit]
  exact Iff.rfl

/-- Row r of the result array is written by point r / 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    omega

/-- After the second launch the result array is the result, entry by entry. -/
theorem final (c : Dev nD) : (dat1 (F := Ideal) V c).arrAt 5 cfg1.N = G V c :=
  (dat1 (F := Ideal) V c).arrAt_eq_of_cover 5 (G V c) (fun t _ => flushed_eq V c t) cover

/-- After the second launch the result array is, entry by entry, the rectifier of the aggregate plus the
    node's own term plus the bias, of the five arrays as the launch found them. -/
theorem arr_apply (c : Dev nD) (i : Fin 100000) (q : Fin 128) :
    (dat1 (F := Ideal) V c).arrAt 5 cfg1.N (ix2 i q)
      = prelu (alphaA V c (ix1 q))
          ((aggA V c (ix2 i q) + hA V c (ix2 i q) * d2A V c (ix2 i (0 : Fin 1))) + biasA V c (ix1 q)) := by
  rw [final]
  rfl

end Cert.KernelIdeal.Region1

end
-- ==== Proof.KernelValue.lean ====
/-
  The kernel program's result, entry by entry: the edges-only arrangement of the graph convolution of the
  arguments as launched.
-/
import proofs.«174639_j37598143709729_1_alg».proof.Proof.KernelFold
import proofs.«174639_j37598143709729_1_alg».proof.Proof.KernelRead
import proofs.«174639_j37598143709729_1_alg».proof.Proof.Region0
import proofs.«174639_j37598143709729_1_alg».proof.Proof.Region1

set_option maxRecDepth 16384

noncomputable section

namespace Cert.KernelIdeal.GValue

open Idealize.ShloMosaic Idealize.ShloMosaic.TcCoe Idealize.SL.Sem Idealize.ShloMosaic.ValueIdx
open Cert.KernelIdeal Cert.KernelIdeal.Gen Cert.KernelIdeal.Stages Cert.GraphConv

variable (m : (ℓ : Loc nD τ sig) → Buf (Elt Ideal) ℓ) (ρ : Dev nD → PrngReg)

/-- The arguments as launched, at their literal types. -/
abbrev xA (c : Dev nD) : S100000x256.Idx → EReal := m ((c : Thread nD τ).loc main_arg0)
abbrev eiA (c : Dev nD) : S2x1600000.Idx → BitVec 32 := m ((c : Thread nD τ).loc main_arg1)
abbrev wA (c : Dev nD) : S256x128.Idx → EReal := m ((c : Thread nD τ).loc main_arg2)
abbrev biasA (c : Dev nD) : S128.Idx → EReal := m ((c : Thread nD τ).loc main_arg3)
abbrev alphaA (c : Dev nD) : S128.Idx → EReal := m ((c : Thread nD τ).loc main_arg4)
/-- The result's buffer after the run, at its literal type. -/
abbrev outA (c : Dev nD) : S100000x128.Idx → EReal := W4 (F := Ideal) m ρ c (Proc.devRef .tc main_v42)

/-- h at the first launch's exit, at its literal type. -/
abbrev hA (c : Dev nD) : S100000x128.Idx → EReal := V2 (F := Ideal) m ρ c main_v4

/-- After the run the result's buffer holds the edges-only arrangement at every entry. -/
theorem kernel_result (c : Dev nD) (i : Fin 100000) (q : Fin 128) :
    outA m ρ c (ix2 i q)
      = outK (rowOf (eiA m c)) (colOf (eiA m c)) (dense (xA m c) (wA m c))
          (fun q => biasA m c (ix1 q)) (fun q => alphaA m c (ix1 q)) i q := by
  -- the slopes and the bias the second launch reads are the arguments
  have eAlpha : Region1.alphaA (V3 m ρ) c = alphaA m c := Fold.V3_alpha m ρ c
  have eBias : Region1.biasA (V3 m ρ) c = biasA m c := Fold.V3_bias m ρ c
  -- h, at the first launch's exit and at the second launch's entry, is the dense map of x and w
  have eH2 : ∀ (i : Fin 100000) (q : Fin 128), hA m ρ c (ix2 i q) = dense (xA m c) (wA m c) i q := fun i q => by
    refine (congrFun (Fold.V2_h m ρ c) (ix2 i q)).trans ?_
    refine (Region0.arr_apply (V1 m ρ) c i q).trans ?_
    rw [Fold.V1_x m ρ c, Fold.V1_w m ρ c]
  have eH : Region1.hA (V3 m ρ) c (ix2 i q) = dense (xA m c) (wA m c) i q :=
    (congrFun (Fold.V3_h m ρ c) (ix2 i q)).trans (eH2 i q)
  -- the two ends of the edges are the rows of the edge array
  have eRow : (fun e => rowV (F := Ideal) (eiA m c) (ix1 e)) = rowOf (eiA m c) :=
    funext fun e => StageRead.rowV_apply (eiA m c) e
  have eCol : (fun e => colV (F := Ideal) (eiA m c) (ix1 e)) = colOf (eiA m c) :=
    funext fun e => StageRead.colV_apply (eiA m c) e
  -- the column dinv² at node i
  have eD : Region1.d2A (V3 m ρ) c (ix2 i (0 : Fin 1))
      = dinvK (colOf (eiA m c)) i * dinvK (colOf (eiA m c)) i := by
    refine (congrFun (Fold.V3_dinv2 m ρ c) (ix2 i (0 : Fin 1))).trans ?_
    refine (StageRead.dinv2V_apply (colV (F := Ideal) (eiA m c)) i).trans ?_
    rw [eCol]
  -- the aggregate at (i, q)
  have eAgg : Region1.aggA (V3 m ρ) c (ix2 i q)
      = zeroW + agg (rowOf (eiA m c)) (colOf (eiA m c)) (dense (xA m c) (wA m c)) (dinvK (colOf (eiA m c))) i q := by
    refine (congrFun (Fold.V3_agg m ρ c) (ix2 i q)).trans ?_
    refine (StageRead.aggV_apply (hA m ρ c) (rowV (F := Ideal) (eiA m c)) (colV (F := Ideal) (eiA m c)) i q).trans ?_
    rw [eRow, eCol, show (fun (i : Fin 100000) (q : Fin 128) => hA m ρ c (ix2 i q)) = dense (xA m c) (wA m c)
      from funext fun i => funext fun q => eH2 i q]
  -- the result's buffer is the second launch's output array, entry by entry the rectifier of these
  refine (congrFun (Fold.W4_out m ρ c) (ix2 i q)).trans ?_
  refine (Region1.arr_apply (V3 m ρ) c i q).trans ?_
  rw [eAlpha, eBias, eAgg, eH, eD]
  rfl

end Cert.KernelIdeal.GValue

end
-- ==== Proof.RefValue.lean ====
/-
  The reference program's result, entry by entry: the self-loop arrangement of the graph convolution of
  its arguments.

  The stages are read in order. The two edge-end lists (source words, target words) are each followed by
  the words 0 … 99999, which is the list extended by the self loops. The degree of node i is the count of
  extended target words whose signed value is i; dinv is its guarded reciprocal square root. Each index
  word is wrapped (a negative word moved up by 100000) and, where a table is read, clamped into the table.
  Edge e's message on channel q is the dense map's row at the source position times the product of dinv at
  the source and at the target position; the aggregate sums the messages by target word; the result is the
  leaky rectifier of aggregate plus bias.
-/
import proofs.«174639_j37598143709729_1_alg».proof.Proof.RefReadP
import proofs.«174639_j37598143709729_1_alg».proof.Proof.LibScatter
import proofs.«174639_j37598143709729_1_alg».proof.Proof.LibDot2
import proofs.«174639_j37598143709729_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate

noncomputable section

open scoped BigOperators

namespace Cert.ReferenceIdeal.GValue

open Idealize.ShloMosaic Idealize.ShloMosaic.TcCoe Idealize.ShloMosaic.ValueIdx
open Cert.ReferenceIdeal Cert.ReferenceIdeal.Gen Cert.ReferenceIdeal.ReadP Cert.GraphConv
open Idealize.ShloMosaic.ScatterRows

/-- The source words, flattened: entry e is row 0 of the edge array at e. -/
theorem v2_apply (x1 : S2x1600000.Idx → BitVec 32) (e : Fin 1600000) :
    val_main_v2 (F := Ideal) x1 (ix1 e) = rowOf x1 e := by
  rw [val_main_v2_apply, val_main_v1_apply]
  unfold rowOf
  refine congrArg x1 (funext fun a => Fin.ext ?_)
  match a with
  | ⟨0, _⟩ => rfl
  | ⟨1, _⟩ => exact Nat.mod_eq_of_lt e.isLt

/-- The target words, flattened: entry e is row 1 of the edge array at e. -/
theorem v5_apply (x1 : S2x1600000.Idx → BitVec 32) (e : Fin 1600000) :
    val_main_v5 (F := Ideal) x1 (ix1 e) = colOf x1 e := by
  rw [val_main_v5_apply, val_main_v4_apply]
  unfold colOf
  refine congrArg x1 (funext fun a => Fin.ext ?_)
  match a with
  | ⟨0, _⟩ => rfl
  | ⟨1, _⟩ => exact Nat.mod_eq_of_lt e.isLt

/-- A word list followed by the words 0 … 99999 is the list extended by the self loops. -/
theorem cat_apply (v : S1600000.Idx → BitVec 32) (w : Fin 1600000 → BitVec 32)
    (hv : ∀ e : Fin 1600000, v (ix1 e) = w e) (e : Fin 1700000) :
    concatenate S1700000 0 [⟨S1600000, v⟩, ⟨S100000, val_main_v0 (F := Ideal)⟩]
        concatenates_S1600000_S100000_S1700000_d0 (ix1 e) = ext w e := by
  unfold ext
  by_cases h : e.val < 1600000
  · rw [dif_pos h]
    refine (concatenate_pair_apply_left (0 : Fin S1700000.rank) v (val_main_v0 (F := Ideal)) _ (ix1 e) rfl
      (ix1 ⟨e.val, h⟩) (fun b => match b with | ⟨0, _⟩ => rfl)).trans ?_
    exact hv _
  · rw [dif_neg h]
    refine (concatenate_pair_apply_right (0 : Fin S1700000.rank) v (val_main_v0 (F := Ideal)) _ (ix1 e) rfl rfl
      (ix1 ⟨e.val - 1600000, by have := e.isLt; omega⟩)
      (fun b hb => match b, hb with | ⟨0, _⟩, hb => absurd rfl hb)
      (by show e.val - 1600000 + 1600000 = e.val; omega)).trans ?_
    rfl

theorem v3_apply (x1 : S2x1600000.Idx → BitVec 32) (e : Fin 1700000) :
    val_main_v3 (F := Ideal) x1 (ix1 e) = ext (rowOf x1) e := by
  unfold val_main_v3
  exact cat_apply _ _ (v2_apply x1) e

theorem v6_apply (x1 : S2x1600000.Idx → BitVec 32) (e : Fin 1700000) :
    val_main_v6 (F := Ideal) x1 (ix1 e) = ext (colOf x1) e := by
  unfold val_main_v6
  exact cat_apply _ _ (v5_apply x1) e

theorem v7_apply (e : Fin 1700000) : val_main_v7 (F := Ideal) (ix1 e) = oneW := by
  rw [val_main_v7_apply, val_main_cst_apply]; rfl

theorem v8_apply (i : Fin 100000) : val_main_v8 (F := Ideal) (ix1 i) = zeroW := by
  rw [val_main_v8_apply, val_main_cst_0_apply]; rfl

theorem v9_apply (x1 : S2x1600000.Idx → BitVec 32) (e : Fin 1700000) :
    val_main_v9 (F := Ideal) x1 (ix2 e (0 : Fin 1)) = ext (colOf x1) e := by
  rw [val_main_v9_apply]
  refine Eq.trans (congrArg (val_main_v6 (F := Ideal) x1) (funext fun a => ?_)) (v6_apply x1 e)
  match a with
  | ⟨0, _⟩ => rfl

/-- The degree count: the plain count over the extended target list. -/
theorem v10_apply (x1 : S2x1600000.Idx → BitVec 32) (i : Fin 100000) :
    val_main_v10 (F := Ideal) x1 (ix1 i) = degR (ext (colOf x1)) i := by
  unfold val_main_v10
  refine (scatterAdd_vec_apply (N := 100000) (n := 1700000) scatter_S100000_S1700000x1_S1700000_n_0_0_1
    rfl rfl rfl rfl _ _ _ i).trans ?_
  unfold degR cnt
  rw [v8_apply]
  refine congrArg (zeroW + ·) (Finset.sum_congr rfl fun e _ => ?_)
  rw [v9_apply, v7_apply]

theorem v15_apply (x1 : S2x1600000.Idx → BitVec 32) (i : Fin 100000) :
    val_main_v15 (F := Ideal) x1 (ix1 i) = dinvR (ext (colOf x1)) i := by
  rw [val_main_v15_apply, val_main_v12_apply, val_main_v13_apply, val_main_v14_apply, val_main_cst_2_apply,
    val_main_v11_apply, val_main_cst_1_apply, v10_apply]
  rfl

/-- The source word, wrapped. -/
theorem v20_apply (x1 : S2x1600000.Idx → BitVec 32) (e : Fin 1700000) :
    val_main_v20 (F := Ideal) x1 (ix1 e) = wrap (ext (rowOf x1) e) := by
  rw [val_main_v20_apply, val_main_v17_apply, val_main_v19_apply, val_main_v16_apply, val_main_c_apply,
    val_main_v18_apply, val_main_c_3_apply, v3_apply]
  rfl

/-- The target word, wrapped. -/
theorem v27_apply (x1 : S2x1600000.Idx → BitVec 32) (e : Fin 1700000) :
    val_main_v27 (F := Ideal) x1 (ix1 e) = wrap (ext (colOf x1) e) := by
  rw [val_main_v27_apply, val_main_v24_apply, val_main_v26_apply, val_main_v23_apply, val_main_c_4_apply,
    val_main_v25_apply, val_main_c_5_apply, v6_apply]
  rfl

/-- The source word, wrapped (the copy the row gather reads). -/
theorem v36_apply (x1 : S2x1600000.Idx → BitVec 32) (e : Fin 1700000) :
    val_main_v36 (F := Ideal) x1 (ix1 e) = wrap (ext (rowOf x1) e) := by
  rw [val_main_v36_apply, val_main_v33_apply, val_main_v35_apply, val_main_v32_apply, val_main_c_6_apply,
    val_main_v34_apply, val_main_c_7_apply, v3_apply]
  rfl

theorem v21_apply (x1 : S2x1600000.Idx → BitVec 32) (e : Fin 1700000) :
    val_main_v21 (F := Ideal) x1 (ix2 e (0 : Fin 1)) = wrap (ext (rowOf x1) e) := by
  rw [val_main_v21_apply]
  refine Eq.trans (congrArg (val_main_v20 (F := Ideal) x1) (funext fun a => ?_)) (v20_apply x1 e)
  match a with
  | ⟨0, _⟩ => rfl

theorem v28_apply (x1 : S2x1600000.Idx → BitVec 32) (e : Fin 1700000) :
    val_main_v28 (F := Ideal) x1 (ix2 e (0 : Fin 1)) = wrap (ext (colOf x1) e) := by
  rw [val_main_v28_apply]
  refine Eq.trans (congrArg (val_main_v27 (F := Ideal) x1) (funext fun a => ?_)) (v27_apply x1 e)
  match a with
  | ⟨0, _⟩ => rfl

theorem v37_apply (x1 : S2x1600000.Idx → BitVec 32) (e : Fin 1700000) :
    val_main_v37 (F := Ideal) x1 (ix2 e (0 : Fin 1)) = wrap (ext (rowOf x1) e) := by
  rw [val_main_v37_apply]
  refine Eq.trans (congrArg (val_main_v36 (F := Ideal) x1) (funext fun a => ?_)) (v36_apply x1 e)
  match a with
  | ⟨0, _⟩ => rfl

/-- dinv at the wrapped, clamped source word. -/
theorem v22_apply (x1 : S2x1600000.Idx → BitVec 32) (e : Fin 1700000) :
    val_main_v22 (F := Ideal) x1 (ix1 e) = dinvR (ext (colOf x1)) (look (ext (rowOf x1) e)) := by
  unfold val_main_v22
  refine (gather_vec_apply (N := 100000) (n := 1700000) gather_S100000_S1700000x1_S1700000_n_0_n_n_0_1_1
    rfl rfl rfl rfl _ _ e (by decide)).trans ?_
  rw [v15_apply]
  refine congrArg (dinvR (ext (colOf x1))) (Fin.ext ?_)
  show min (val_main_v21 (F := Ideal) x1 (ix2 e (0 : Fin 1))).toInt.toNat (100000 - 1) = _
  rw [v21_apply]; rfl

/-- dinv at the wrapped, clamped target word. -/
theorem v29_apply (x1 : S2x1600000.Idx → BitVec 32) (e : Fin 1700000) :
    val_main_v29 (F := Ideal) x1 (ix1 e) = dinvR (ext (colOf x1)) (look (ext (colOf x1) e)) := by
  unfold val_main_v29
  refine (gather_vec_apply (N := 100000) (n := 1700000) gather_S100000_S1700000x1_S1700000_n_0_n_n_0_1_1
    rfl rfl rfl rfl _ _ e (by decide)).trans ?_
  rw [v15_apply]
  refine congrArg (dinvR (ext (colOf x1))) (Fin.ext ?_)
  show min (val_main_v28 (F := Ideal) x1 (ix2 e (0 : Fin 1))).toInt.toNat (100000 - 1) = _
  rw [v28_apply]; rfl

/-- The edge's weight: dinv at its source times dinv at its target. -/
theorem v30_apply (x1 : S2x1600000.Idx → BitVec 32) (e : Fin 1700000) :
    val_main_v30 (F := Ideal) x1 (ix1 e)
      = dinvR (ext (colOf x1)) (look (ext (rowOf x1) e)) * dinvR (ext (colOf x1)) (look (ext (colOf x1) e)) := by
  rw [val_main_v30_apply, v22_apply, v29_apply]; rfl

/-- The dense map at (i, q). -/
theorem v31_apply (x0 : S100000x256.Idx → EReal) (x2 : S256x128.Idx → EReal) (i : Fin 100000) (q : Fin 128) :
    val_main_v31 (F := Ideal) x0 x2 (ix2 i q) = dense x0 x2 i q := by
  rw [val_main_v31_apply]
  unfold dense
  refine Finset.sum_congr rfl fun k _ => ?_
  have el : lidx_main_v31 (ix2 i q) k = ix2 i k := funext fun a => Fin.ext (by
    match a with
    | ⟨0, _⟩ => rfl
    | ⟨1, _⟩ => rfl)
  have er : ridx_main_v31 (ix2 i q) k = ix2 k q := funext fun a => Fin.ext (by
    match a with
    | ⟨0, _⟩ => rfl
    | ⟨1, _⟩ => rfl)
  rw [el, er]

/-- The dense map's row at the wrapped, clamped source word. -/
theorem v38_apply (x0 : S100000x256.Idx → EReal) (x1 : S2x1600000.Idx → BitVec 32) (x2 : S256x128.Idx → EReal)
    (e : Fin 1700000) (q : Fin 128) :
    val_main_v38 (F := Ideal) x0 x1 x2 (ix2 e q) = dense x0 x2 (look (ext (rowOf x1) e)) q := by
  unfold val_main_v38
  refine (gather_rows_apply (N := 100000) (n := 1700000) (C := 128)
    gather_S100000x128_S1700000x1_S1700000x128_1_0_n_n_0_1_1128
    rfl rfl rfl rfl rfl _ _ e q (by decide)).trans ?_
  rw [v31_apply]
  refine congrArg (fun r => dense x0 x2 r q) (Fin.ext ?_)
  show min (val_main_v37 (F := Ideal) x1 (ix2 e (0 : Fin 1))).toInt.toNat (100000 - 1) = _
  rw [v37_apply]; rfl

theorem v40_apply (x1 : S2x1600000.Idx → BitVec 32) (e : Fin 1700000) (q : Fin 128) :
    val_main_v40 (F := Ideal) x1 (ix2 e q) = val_main_v30 (F := Ideal) x1 (ix1 e) := by
  rw [val_main_v40_apply, val_main_v39_apply]
  refine congrArg (val_main_v30 (F := Ideal) x1) (funext fun a => ?_)
  match a with
  | ⟨0, _⟩ => rfl

/-- Edge e's message on channel q. -/
theorem v41_apply (x0 : S100000x256.Idx → EReal) (x1 : S2x1600000.Idx → BitVec 32) (x2 : S256x128.Idx → EReal)
    (e : Fin 1700000) (q : Fin 128) :
    val_main_v41 (F := Ideal) x0 x1 x2 (ix2 e q)
      = msg (ext (rowOf x1)) (ext (colOf x1)) (dense x0 x2) (dinvR (ext (colOf x1))) e q := by
  rw [val_main_v41_apply, v38_apply, v40_apply, v30_apply]; rfl

theorem v42_apply (i : Fin 100000) (q : Fin 128) : val_main_v42 (F := Ideal) (ix2 i q) = zeroW := by
  rw [val_main_v42_apply, val_main_cst_8_apply]; rfl

theorem v43_apply (x1 : S2x1600000.Idx → BitVec 32) (e : Fin 1700000) :
    val_main_v43 (F := Ideal) x1 (ix2 e (0 : Fin 1)) = ext (colOf x1) e := by
  rw [val_main_v43_apply]
  refine Eq.trans (congrArg (val_main_v6 (F := Ideal) x1) (funext fun a => ?_)) (v6_apply x1 e)
  match a with
  | ⟨0, _⟩ => rfl

/-- The aggregate: the messages landing on node i, summed over the extended list. -/
theorem v44_apply (x0 : S100000x256.Idx → EReal) (x1 : S2x1600000.Idx → BitVec 32) (x2 : S256x128.Idx → EReal)
    (i : Fin 100000) (q : Fin 128) :
    val_main_v44 (F := Ideal) x0 x1 x2 (ix2 i q)
      = zeroW + agg (ext (rowOf x1)) (ext (colOf x1)) (dense x0 x2) (dinvR (ext (colOf x1))) i q := by
  unfold val_main_v44
  refine (scatterAdd_rows_apply (N := 100000) (n := 1700000) (C := 128)
    scatter_S100000x128_S1700000x1_S1700000x128_1_0_0_1 rfl rfl rfl rfl _ _ _ i q).trans ?_
  unfold agg
  rw [v42_apply]
  refine congrArg (zeroW + ·) (Finset.sum_congr rfl fun e _ => ?_)
  rw [v43_apply, v41_apply]

theorem v46_apply (x3 : S128.Idx → EReal) (i : Fin 100000) (q : Fin 128) :
    val_main_v46 (F := Ideal) x3 (ix2 i q) = x3 (ix1 q) := by
  rw [val_main_v46_apply, val_main_v45_apply]
  refine congrArg x3 (funext fun a => ?_)
  match a with
  | ⟨0, _⟩ => rfl

theorem v51_apply (x4 : S128.Idx → EReal) (i : Fin 100000) (q : Fin 128) :
    val_main_v51 (F := Ideal) x4 (ix2 i q) = x4 (ix1 q) := by
  rw [val_main_v51_apply, val_main_v50_apply]
  refine congrArg x4 (funext fun a => ?_)
  match a with
  | ⟨0, _⟩ => rfl

/-- The aggregate plus the bias. -/
theorem v47_apply (x0 : S100000x256.Idx → EReal) (x1 : S2x1600000.Idx → BitVec 32) (x2 : S256x128.Idx → EReal)
    (x3 : S128.Idx → EReal) (i : Fin 100000) (q : Fin 128) :
    val_main_v47 (F := Ideal) x0 x1 x2 x3 (ix2 i q)
      = (zeroW + agg (ext (rowOf x1)) (ext (colOf x1)) (dense x0 x2) (dinvR (ext (colOf x1))) i q) + x3 (ix1 q) := by
  rw [val_main_v47_apply, v44_apply, v46_apply]; rfl

theorem v48_apply (i : Fin 100000) (q : Fin 128) : val_main_v48 (F := Ideal) (ix2 i q) = zeroW := by
  rw [val_main_v48_apply, val_main_cst_9_apply]; rfl

/-- The reference's last stage at (i, q) is the self-loop arrangement. -/
theorem ref_result (x0 : S100000x256.Idx → EReal) (x1 : S2x1600000.Idx → BitVec 32) (x2 : S256x128.Idx → EReal)
    (x3 x4 : S128.Idx → EReal) (i : Fin 100000) (q : Fin 128) :
    val_main_v53 (F := Ideal) x0 x1 x2 x3 x4 (ix2 i q)
      = outR (ext (rowOf x1)) (ext (colOf x1)) (dense x0 x2) (fun q => x3 (ix1 q)) (fun q => x4 (ix1 q)) i q := by
  rw [val_main_v53_apply, val_main_v49_apply, val_main_v52_apply, v51_apply, v48_apply, v47_apply]
  rfl

end Cert.ReferenceIdeal.GValue

end
-- ==== Proof.Bridge.lean ====
/-
  The two arrangements of the graph convolution agree.

  Extending the edge list by the self loops (j → j) adds exactly one to every node's count — the loop of
  node i is the one added entry whose target word is i — so the extended count is at least one, the test
  deg > 0 always passes, and both arrangements have dinv = 1/√(count + 1). The aggregate over the extended
  list is the aggregate over the edges plus the loop's own message h[i, q] · (dinv i · dinv i): the loop's
  words are in [0, 100000), so they neither wrap nor clamp. Sums in the extended reals are commutative and
  associative, which is all the rearrangement uses.
-/
import proofs.«174639_j37598143709729_1_alg».proof.Proof.Spec
import Idealize.ShloMosaic.Lib.StableHlo.Predicate
import Idealize.ShloMosaic.Lib.IdealHost
import Idealize.ShloMosaic.PureOps.Ideal.Laws

noncomputable section

open scoped BigOperators

namespace Cert.GraphConv

open Idealize.ShloMosaic Idealize.ShloMosaic.ValueIdx

/-! ## The extended list, split into the edges and the self loops -/

/-- A sum over the extended list is the sum over the edges plus the sum over the self loops. -/
theorem sum_split {m n : Nat} (f : Fin (m + n) → EReal) :
    ∑ e : Fin (m + n), f e = ∑ e : Fin m, f (Fin.castAdd n e) + ∑ j : Fin n, f (Fin.natAdd m j) :=
  Fin.sum_univ_add f

/-- The same at the literal extents: 1700000 entries are 1600000 edges followed by 100000 self loops. -/
theorem sum_ext (f : Fin 1700000 → EReal) :
    ∑ e : Fin 1700000, f e
      = ∑ e : Fin 1600000, f ⟨e.val, by omega⟩ + ∑ j : Fin 100000, f ⟨1600000 + j.val, by omega⟩ :=
  sum_split (m := 1600000) (n := 100000) f

/-- On an edge the extended list is the list. -/
theorem ext_edge (v : Fin 1600000 → BitVec 32) (e : Fin 1600000) : ext v ⟨e.val, by omega⟩ = v e := by
  unfold ext; rw [dif_pos e.isLt]

/-- On self loop j the extended list is the word j. -/
theorem ext_loop (v : Fin 1600000 → BitVec 32) (j : Fin 100000) :
    ext v ⟨1600000 + j.val, by omega⟩ = BitVec.ofNat 32 j.val := by
  unfold ext; rw [dif_neg (by show ¬(1600000 + j.val < 1600000); omega)]
  show BitVec.ofNat 32 (1600000 + j.val - 1600000) = _
  rw [Nat.add_sub_cancel_left]

/-! ## A self loop's word: its signed value, and where it looks -/

/-- The word j, for j < 100000, read signed is j. -/
theorem toInt_loop (j : Fin 100000) : (BitVec.ofNat 32 j.val).toInt = (j.val : ℤ) :=
  StableHlo.Predicate.toInt_ofNat_small j.val (by have := j.isLt; omega)

/-- The word j lands on node i exactly when j = i. -/
theorem loop_lands_iff (j i : Fin 100000) : (BitVec.ofNat 32 j.val).toInt = (i.val : ℤ) ↔ j = i := by
  rw [toInt_loop]
  constructor
  · intro h; exact Fin.ext (by exact_mod_cast h)
  · intro h; rw [h]

/-- The word j, for j < 100000, is not negative, so it does not wrap; it is inside the table, so the clamp
    keeps it: it looks at node j. -/
theorem look_loop (j : Fin 100000) : look (BitVec.ofNat 32 j.val) = j := by
  have hj := j.isLt
  have hn : (BitVec.ofNat 32 j.val).toNat = j.val := by
    rw [BitVec.toNat_ofNat]; exact Nat.mod_eq_of_lt (by omega)
  have hslt : ¬ IntOp.cmpi .slt (BitVec.ofNat 32 j.val) 0#32 = 1#1 := by
    rw [StableHlo.Predicate.slt_iff_toNat (by rw [hn]; omega) (by decide)]
    simp
  have hw : wrap (BitVec.ofNat 32 j.val) = BitVec.ofNat 32 j.val := by
    unfold wrap Scalar.select; exact if_neg hslt
  unfold look clampIx
  apply Fin.ext
  show min (wrap (BitVec.ofNat 32 j.val)).toInt.toNat 99999 = j.val
  rw [hw, toInt_loop, Int.toNat_natCast]
  omega

/-- A sum over the nodes of a term that is present only at node i is that term at i. -/
theorem loop_sum (i : Fin 100000) (g : Fin 100000 → EReal) :
    ∑ j : Fin 100000, (if j = i then g j else 0) = g i := by
  rw [Finset.sum_eq_single_of_mem i (Finset.mem_univ i) (fun b _ hb => if_neg hb), if_pos rfl]

/-! ## The count and the degree -/

/-- The words 0.0 and 1.0 are zero and one. -/
theorem zeroW_eq : zeroW = 0 := Ideal.ofBits_zero_f32
theorem oneW_eq : oneW = 1 := Ideal.ofBits_one_f32

/-- The extended list's count is the edges' count plus one. -/
theorem cnt_ext (col : Fin 1600000 → BitVec 32) (i : Fin 100000) : cnt (ext col) i = cnt col i + oneW := by
  unfold cnt
  rw [sum_ext]
  refine congrArg₂ (· + ·) (Finset.sum_congr rfl fun e _ => ?_) ?_
  · rw [ext_edge]
  · have hloop : ∀ j : Fin 100000,
        (if (ext col ⟨1600000 + j.val, by omega⟩).toInt = (i.val : ℤ) then oneW else 0)
          = if j = i then oneW else 0 := fun j => by
      rw [ext_loop]; exact if_congr (loop_lands_iff j i) rfl rfl
    rw [Finset.sum_congr rfl fun j _ => hloop j]
    exact loop_sum i (fun _ => oneW)

/-- A count is not negative. -/
theorem cnt_nonneg {n : Nat} (col : Fin n → BitVec 32) (i : Fin 100000) : 0 ≤ cnt col i := by
  unfold cnt
  refine Finset.sum_nonneg fun e _ => ?_
  split
  · rw [oneW_eq]; exact zero_le_one
  · exact le_refl 0

/-- The extended list's degree is the edges-only degree. -/
theorem degR_ext (col : Fin 1600000 → BitVec 32) (i : Fin 100000) : degR (ext col) i = degK col i := by
  unfold degR degK
  rw [cnt_ext, add_assoc]

/-- The edges-only degree is positive. -/
theorem degK_pos (col : Fin 1600000 → BitVec 32) (i : Fin 100000) : zeroW < degK col i := by
  unfold degK
  rw [zeroW_eq, zero_add, oneW_eq]
  exact lt_of_lt_of_le zero_lt_one (le_add_of_nonneg_left (cnt_nonneg col i))

/-- So the guarded reciprocal square root of the extended list is the plain one of the edges. -/
theorem dinvR_ext (col : Fin 1600000 → BitVec 32) : dinvR (ext col) = dinvK col := by
  funext i
  unfold dinvR dinvK
  rw [degR_ext]
  have h : FloatOps.cmpf (F := Ideal) (φ := .f32) .ogt (degK col i) zeroW = 1#1 := by
    show Ideal.cmp .ogt (degK col i) zeroW = 1#1
    unfold Ideal.cmp
    simp only [decide_eq_true (degK_pos col i), BitVec.ofBool_true]
    rfl
  rw [h]
  exact ValueIdx.select_one _ _

/-! ## The aggregate -/

/-- The aggregate over the extended list is the aggregate over the edges plus the node's own term. -/
theorem agg_ext (row col : Fin 1600000 → BitVec 32) (h : Fin 100000 → Fin 128 → EReal) (dinv : Fin 100000 → EReal)
    (i : Fin 100000) (q : Fin 128) :
    agg (ext row) (ext col) h dinv i q = agg row col h dinv i q + h i q * (dinv i * dinv i) := by
  unfold agg
  rw [sum_ext]
  refine congrArg₂ (· + ·) (Finset.sum_congr rfl fun e _ => ?_) ?_
  · unfold msg
    rw [ext_edge, ext_edge]
  · have hloop : ∀ j : Fin 100000,
        (if (ext col ⟨1600000 + j.val, by omega⟩).toInt = (i.val : ℤ)
            then msg (ext row) (ext col) h dinv ⟨1600000 + j.val, by omega⟩ q else 0)
          = if j = i then h j q * (dinv j * dinv j) else 0 := fun j => by
      unfold msg
      rw [ext_loop, ext_loop, look_loop]
      exact if_congr (loop_lands_iff j i) rfl rfl
    rw [Finset.sum_congr rfl fun j _ => hloop j]
    exact loop_sum i (fun j => h j q * (dinv j * dinv j))

/-! ## The outputs -/

/-- Edges only with the node's own term added afterwards, and the list extended by the self loops, give
    the same output at every node and channel. -/
theorem outK_eq_outR (row col : Fin 1600000 → BitVec 32) (h : Fin 100000 → Fin 128 → EReal)
    (bias alpha : Fin 128 → EReal) (i : Fin 100000) (q : Fin 128) :
    outK row col h bias alpha i q = outR (ext row) (ext col) h bias alpha i q := by
  unfold outK outR
  rw [dinvR_ext, agg_ext, add_assoc zeroW]

end Cert.GraphConv

end
-- ==== Proof.lean ====
/-
  A graph-convolution layer with a per-channel leaky rectifier, in two arrangements, certified equal over
  the extended reals.

  The kernel program computes h = x · w on the accelerator, the degree normalisation and the edge messages
  on the host over the 1600000 edges, and on the accelerator again adds each node's own term
  h[i] · dinv²[i], the bias and the rectifier. The reference extends the edge list by the 100000 self loops
  and lets one segment sum produce the aggregate with the node's own term in it. Entry by entry both are
  the graph convolution of the specification (Spec.lean): the kernel program the edges-only arrangement
  (KernelValue.lean), the reference the self-loop arrangement (RefValue.lean), and the two arrangements
  agree (Bridge.lean). The ledger of the idealization is empty.
-/
import proofs.«174639_j37598143709729_1_alg».proof.Defs
import proofs.«174639_j37598143709729_1_alg».proof.Proof.Gen.Kernel
import proofs.«174639_j37598143709729_1_alg».proof.Proof.Gen.Kernel.Frame
import proofs.«174639_j37598143709729_1_alg».proof.Proof.Gen.KernelIdeal
import proofs.«174639_j37598143709729_1_alg».proof.Proof.Gen.KernelIdeal.Frame
import proofs.«174639_j37598143709729_1_alg».proof.Proof.Gen.ReferenceIdeal
import proofs.«174639_j37598143709729_1_alg».proof.Proof.Gen.Pre_finite_inputs
import proofs.«174639_j37598143709729_1_alg».proof.Proof.RunNamed
import proofs.«174639_j37598143709729_1_alg».proof.Proof.RefRun
import proofs.«174639_j37598143709729_1_alg».proof.Proof.RefReadP
import proofs.«174639_j37598143709729_1_alg».proof.Proof.KernelValue
import proofs.«174639_j37598143709729_1_alg».proof.Proof.RefValue
import proofs.«174639_j37598143709729_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the same result array: at every entry the kernel program holds the edges-only
    arrangement, the reference the self-loop arrangement, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 (F := Ideal) m ρ c (Proc.devRef .tc Cert.KernelIdeal.main_v42),
    Cert.KernelIdeal.GenNamed.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2.1, (hagree c).2.2.1, (hagree c).2.2.2.1,
    (hagree c).2.2.2.2]
  funext j
  obtain ⟨i, q, rfl⟩ : ∃ (i : Fin 100000) (q : Fin 128), j = ix2 i q := ⟨j 0, j 1, eq_ix2 j⟩
  refine (Cert.ReferenceIdeal.GValue.ref_result _ _ _ _ _ i q).trans ?_
  refine Eq.trans ?_ (Cert.KernelIdeal.GValue.kernel_result m ρ c i q).symm
  exact (Cert.GraphConv.outK_eq_outR _ _ _ _ _ i q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
